-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 57
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S1x64, .f32⟩
  | .hbm, ⟨56, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Aggregate.lean ====
/-
  The mean over a node's incoming edges, in its two spellings.

  Both programs gather the source node's row along every edge and add it into the destination node's row (`msgSum`),
  count each node's incoming edges the same way (`degree`), and clamp the count at one. One then multiplies the sums,
  row by row, by the reciprocal `1 / d` of the clamped count, the other divides them by `d`. On the extended reals a
  quotient by a nonzero `d` IS the product with `d⁻¹`, and `d = max (count) 1` is at least one, so never zero:
  `s · (1 / d) = s · (1 · d⁻¹) = s · d⁻¹ = s / d`, whatever `s` is. The gather and the scatter-add themselves are
  never opened: both programs apply the same ones to the same operands.
-/
import proofs.«180621_j66219805769844_1_alg».proof.KernelIdeal
import proofs.«180621_j66219805769844_1_alg».proof.Proof.Gen.KernelIdeal
import Idealize.ShloMosaic.PureOps.Ideal.Laws
import Idealize.ShloMosaic.Lib.ValueIdx
import Idealize.ShloMosaic.Lib.Pipeline.Value
import Idealize.ShloMosaic.Lib.IdealHost

set_option maxRecDepth 16384

noncomputable section

namespace Cert.Sage

open Idealize.ShloMosaic Idealize.ShloMosaic.ValueIdx Cert.KernelIdeal Cert.KernelIdeal.Facts₀

/-- The edge sources as gather indices: a negative index wrapped once by the number of nodes, one index per row. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The edge destinations as scatter indices, one index per row. -/
def dstIdx (dst : IVec S1600000 32) : IVec S1600000x1 32 :=
  broadcastInDim S1600000x1 ![0] bcast_S1600000_S1600000x1_0 dst

/-- Per destination node, the sum of the source nodes' rows over its incoming edges. -/
def msgSum (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (dstIdx dst)
    (Host.gather gather_S100000x128_S1600000x1_S1600000x128_1_0_n_n_0_1_1128 h (srcIdx src))

/-- Per node, the number of its incoming edges. -/
def degree (dst : IVec S1600000 32) : FVec Ideal S100000 .f32 :=
  Host.scatterAdd scatter_S100000_S1600000x1_S1600000_n_0_0_1
    (broadcastInDim S100000 ![] bcast_S_S100000 (constant S_ .f32 0x00000000#32))
    (dstIdx dst)
    (broadcastInDim S1600000 ![] bcast_S_S1600000 (constant S_ .f32 0x3F800000#32))

/-- The count clamped at one. -/
def clampDeg (dst : IVec S1600000 32) : FVec Ideal S100000 .f32 :=
  maximumf (degree dst) (broadcastInDim S100000 ![] bcast_S_S100000 (constant S_ .f32 0x3F800000#32))

/-- The reciprocal of the clamped count. -/
def invDeg (dst : IVec S1600000 32) : FVec Ideal S100000 .f32 :=
  Host.divf (broadcastInDim S100000 ![] bcast_S_S100000 (constant S_ .f32 0x3F800000#32)) (clampDeg dst)

/-- A per-node scalar laid along the node's whole row. -/
def alongRow (v : FVec Ideal S100000 .f32) : FVec Ideal S100000x128 .f32 :=
  broadcastInDim S100000x128 ![0, 1] bcast_S100000x1_S100000x128_0_1
    (broadcastInDim S100000x1 ![0] bcast_S100000_S100000x1_0 v)

/-- The mean as the sum times the reciprocal count. -/
def meanMul (h : FVec Ideal S100000x128 .f32) (src dst : IVec S1600000 32) : FVec Ideal S100000x128 .f32 :=
  mulf (msgSum h src dst) (alongRow (invDeg dst))

/-- The mean as the sum divided by the count. -/
def meanDiv (h : FVec Ideal S100000x128 .f32) (src dst : IVec S1600000 32) : FVec Ideal S100000x128 .f32 :=
  Host.divf (msgSum h src dst) (alongRow (clampDeg dst))

/-- A per-node scalar as a one-column array reads, at `(P, u)`, the scalar at `P`. -/
theorem column_apply (v : FVec Ideal S100000 .f32) (P : Fin 100000) (u : Fin 1) :
    broadcastInDim S100000x1 ![0] bcast_S100000_S100000x1_0 v (ix2 P u) = v (ix1 P) :=
  broadcastInDim_apply _ bcast_S100000_S100000x1_0 v (ix2 P u) (ix1 P) (fun a => match a with
    | ⟨0, _⟩ => by show P.val = if (100000 : Nat) = 1 then 0 else P.val; rw [if_neg (by decide)])

/-- A one-column array spread over 128 columns reads, at `(P, q)`, its entry `(P, 0)`. -/
theorem spread_apply (y : FVec Ideal S100000x1 .f32) (P : Fin 100000) (q : Fin 128) :
    broadcastInDim S100000x128 ![0, 1] bcast_S100000x1_S100000x128_0_1 y (ix2 P q) = y (ix2 P (0 : Fin 1)) :=
  broadcastInDim_apply _ bcast_S100000x1_S100000x128_0_1 y (ix2 P q) (ix2 P (0 : Fin 1)) (fun a => match a with
    | ⟨0, _⟩ => by show P.val = if (100000 : Nat) = 1 then 0 else P.val; rw [if_neg (by decide)]
    | ⟨1, _⟩ => by show 0 = if (1 : Nat) = 1 then 0 else q.val; rw [if_pos rfl])

/-- A row-laid scalar at `(P, q)` is the scalar at `P`. -/
theorem alongRow_apply (v : FVec Ideal S100000 .f32) (P : Fin 100000) (q : Fin 128) :
    alongRow v (ix2 P q) = v (ix1 P) := by
  unfold alongRow
  exact (spread_apply _ P q).trans (column_apply v P 0)

/-- On the extended reals, a product with the reciprocal of a `d ≥ 1` is the quotient by `d`. -/
theorem mul_div_one_eq_div (s e : EReal) :
    s * Ideal.div (Ideal.ofBits .f32 0x3F800000#32) (max e (Ideal.ofBits .f32 0x3F800000#32))
      = Ideal.div s (max e (Ideal.ofBits .f32 0x3F800000#32)) := by
  rw [Ideal.ofBits_one_f32]
  exact Ideal.mul_one_div (ne_of_gt (lt_of_lt_of_le zero_lt_one (le_max_right e 1)))

/-- The product spelling at an entry. -/
theorem meanMul_at (h : FVec Ideal S100000x128 .f32) (src dst : IVec S1600000 32) (i : S100000x128.Idx) :
    meanMul h src dst i = msgSum h src dst i * alongRow (invDeg dst) i := by
  unfold meanMul
  exact mulf_apply _ _ i

/-- The quotient spelling at an entry. -/
theorem meanDiv_at (h : FVec Ideal S100000x128 .f32) (src dst : IVec S1600000 32) (i : S100000x128.Idx) :
    meanDiv h src dst i = Ideal.div (msgSum h src dst i) (alongRow (clampDeg dst) i) := by
  unfold meanDiv
  exact hostDivf_apply _ _ i

/-- The clamped count at a node. -/
theorem clampDeg_at (dst : IVec S1600000 32) (j : S100000.Idx) :
    clampDeg dst j = max (degree dst j) (Ideal.ofBits .f32 0x3F800000#32) := by
  unfold clampDeg
  rw [maximumf_apply, broadcastInDim_scalar_apply, constant_apply]

/-- The reciprocal count at a node. -/
theorem invDeg_at (dst : IVec S1600000 32) (j : S100000.Idx) :
    invDeg dst j = Ideal.div (Ideal.ofBits .f32 0x3F800000#32) (clampDeg dst j) := by
  unfold invDeg
  rw [hostDivf_apply, broadcastInDim_scalar_apply, constant_apply]

/-- The two spellings of the mean agree at entry `(P, q)`. -/
theorem meanMul_apply (h : FVec Ideal S100000x128 .f32) (src dst : IVec S1600000 32) (P : Fin 100000) (q : Fin 128) :
    meanMul h src dst (ix2 P q) = meanDiv h src dst (ix2 P q) := by
  rw [meanMul_at, meanDiv_at, alongRow_apply, alongRow_apply, invDeg_at, clampDeg_at]
  exact mul_div_one_eq_div _ _

/-- The two spellings of the mean are one array. -/
theorem meanMul_eq_meanDiv (h : FVec Ideal S100000x128 .f32) (src dst : IVec S1600000 32) :
    meanMul h src dst = meanDiv h src dst := by
  funext i
  have hi : i = ix2 (i 0 : Fin 100000) (i 1 : Fin 128) := eq_ix2 i
  rw [hi]
  exact meanMul_apply h src dst _ _

end Cert.Sage

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.LayerPayload.lean ====
/-
  One SAGE layer's body, read at an entry.

  A grid point's body loads a 5000-row block `h` of the node features, the matching block `a` of the neighbour means,
  the two weight matrices and the bias row, and stores `h·W_self + a·W_neigh + bias` (the first layer then clamps at
  zero). Over the extended reals the casts to bf16 are the identity and each `tpu.matmul` into the zero accumulator is
  the plain sum over the contracted axis, so entry `(p, q)` of the stored block is
  `(∑ k, h (p, k) · W_self (k, q) + ∑ k, a (p, k) · W_neigh (k, q)) + bias (0, q)`, clamped or not.
-/
import proofs.«180621_j66219805769844_1_alg».proof.Proof.Gen.KernelIdeal.Skeleton
import proofs.«180621_j66219805769844_1_alg».proof.Proof.LibPlainDot
import Idealize.ShloMosaic.Lib.ValueLayout
import Idealize.ShloMosaic.Lib.Pipeline.Value

noncomputable section

namespace Cert.Sage

open Idealize.ShloMosaic Idealize.ShloMosaic.ValueIdx Cert.KernelIdeal Cert.KernelIdeal.Gen

/-- The affine part of a layer at entry `(p, q)`: the self term, the neighbour term, the bias. -/
def affine {M K N : Nat} (h a : (⟨2, ![M, K]⟩ : Shape).Idx → EReal) (ws wn : (⟨2, ![K, N]⟩ : Shape).Idx → EReal)
    (b : (⟨2, ![1, N]⟩ : Shape).Idx → EReal) (p : Fin M) (q : Fin N) : EReal :=
  ((∑ k : Fin K, h (ix2 p k) * ws (ix2 k q)) + ∑ k : Fin K, a (ix2 p k) * wn (ix2 k q)) + b (ix2 (0 : Fin 1) q)

/-- The first layer's product is the plain 5000×128 by 128×128 one. -/
theorem dot0_plain : dot_S5000x128_S128x128_S5000x128_1_0_0_1_n_n = DotDims.plain 5000 128 128 := rfl

/-- The second layer's product is the plain 5000×128 by 128×64 one. -/
theorem dot1_plain : dot_S5000x128_S128x64_S5000x64_1_0_0_1_n_n = DotDims.plain 5000 128 64 := rfl

/-- The first layer's stored block at `(p, q)`: the affine part clamped at zero. -/
theorem pay0_apply (h a : Vec Ideal S5000x128 .f32) (ws wn : Vec Ideal S128x128 .f32) (b : Vec Ideal S1x128 .f32)
    (p : Fin 5000) (q : Fin 128) :
    k0_pay1 (F := Ideal) h a ws wn b (ix2 p q) = max (affine h a ws wn b p q) 0 := by
  unfold k0_pay1 affine
  rw [maximumf_apply, addf_apply, addf_apply, broadcast_apply, dot0_plain, shapeCast_self, shapeCast_self]
  exact congrArg₂ max
    (congrArg₂ (· + ·)
      (congrArg₂ (· + ·)
        (Cert.Lib.PlainDot.matmul_zero_apply none (truncf .bf16 h bitsLt_bf16_f32) (truncf .bf16 ws bitsLt_bf16_f32) p q)
        (Cert.Lib.PlainDot.matmul_zero_apply none (truncf .bf16 a bitsLt_bf16_f32) (truncf .bf16 wn bitsLt_bf16_f32) p q))
      (broadcastTo_1b_ab_apply b _ p q))
    Ideal.ofBits_zero_f32

/-- The second layer's stored block at `(p, q)`: the affine part. -/
theorem pay1_apply (h a : Vec Ideal S5000x128 .f32) (ws wn : Vec Ideal S128x64 .f32) (b : Vec Ideal S1x64 .f32)
    (p : Fin 5000) (q : Fin 64) :
    k1_pay1 (F := Ideal) h a ws wn b (ix2 p q) = affine h a ws wn b p q := by
  unfold k1_pay1 affine
  rw [addf_apply, addf_apply, dot1_plain, shapeCast_self, shapeCast_self, shapeCast_self]
  exact congrArg₂ (· + ·)
    (congrArg₂ (· + ·)
      (Cert.Lib.PlainDot.matmul_zero_apply none (truncf .bf16 h bitsLt_bf16_f32) (truncf .bf16 ws bitsLt_bf16_f32) p q)
      (Cert.Lib.PlainDot.matmul_zero_apply none (truncf .bf16 a bitsLt_bf16_f32) (truncf .bf16 wn bitsLt_bf16_f32) p q))
    (broadcastTo_1b_ab_apply b _ p q)

/-- The first layer over the whole node array: the affine part of the node's row, clamped at zero. -/
def layerRelu (H A : Vec Ideal S100000x128 .f32) (Ws Wn : Vec Ideal S128x128 .f32) (B : Vec Ideal S1x128 .f32) :
    Vec Ideal S100000x128 .f32 :=
  fun i => max (affine H A Ws Wn B (i 0) (i 1)) 0

/-- The second layer over the whole node array: the affine part of the node's row. -/
def layerLin (H A : Vec Ideal S100000x128 .f32) (Ws Wn : Vec Ideal S128x64 .f32) (B : Vec Ideal S1x64 .f32) :
    Vec Ideal S100000x64 .f32 :=
  fun i => affine H A Ws Wn B (i 0) (i 1)

/-- A stored block of the first layer is the whole-array layer at the block's rows: if row `p` of the loaded feature
    and neighbour blocks is row `P` of the arrays, and the weights and bias are loaded whole, entry `(p, q)` of the
    stored block is entry `(P, q)` of the layer. -/
theorem pay0_eq_layer (H A : Vec Ideal S100000x128 .f32) (Ws Wn : Vec Ideal S128x128 .f32) (B : Vec Ideal S1x128 .f32)
    (h a : Vec Ideal S5000x128 .f32) (ws wn : Vec Ideal S128x128 .f32) (b : Vec Ideal S1x128 .f32)
    (p : Fin 5000) (q : Fin 128) (P : Fin 100000)
    (hh : ∀ k : Fin 128, h (ix2 p k) = H (ix2 P k)) (ha : ∀ k : Fin 128, a (ix2 p k) = A (ix2 P k))
    (hws : ws = Ws) (hwn : wn = Wn) (hb : b = B) :
    k0_pay1 (F := Ideal) h a ws wn b (ix2 p q) = layerRelu H A Ws Wn B (ix2 P q) := by
  rw [pay0_apply, hws, hwn, hb]
  show max (affine h a Ws Wn B p q) 0 = max (affine H A Ws Wn B P q) 0
  unfold affine
  simp only [hh, ha]

/-- The same for the second layer. -/
theorem pay1_eq_layer (H A : Vec Ideal S100000x128 .f32) (Ws Wn : Vec Ideal S128x64 .f32) (B : Vec Ideal S1x64 .f32)
    (h a : Vec Ideal S5000x128 .f32) (ws wn : Vec Ideal S128x64 .f32) (b : Vec Ideal S1x64 .f32)
    (p : Fin 5000) (q : Fin 64) (P : Fin 100000)
    (hh : ∀ k : Fin 128, h (ix2 p k) = H (ix2 P k)) (ha : ∀ k : Fin 128, a (ix2 p k) = A (ix2 P k))
    (hws : ws = Ws) (hwn : wn = Wn) (hb : b = B) :
    k1_pay1 (F := Ideal) h a ws wn b (ix2 p q) = layerLin H A Ws Wn B (ix2 P q) := by
  rw [pay1_apply, hws, hwn, hb]
  show affine h a Ws Wn B p q = affine H A Ws Wn B P q
  unfold affine
  simp only [hh, ha]

/-- The first layer's stored block against the whole-array layer, at any block index `j` and array index `i` that
    share the column and whose rows correspond. -/
theorem pay0_eq_layer_at (H A : Vec Ideal S100000x128 .f32) (Ws Wn : Vec Ideal S128x128 .f32) (B : Vec Ideal S1x128 .f32)
    (h a : Vec Ideal S5000x128 .f32) (ws wn : Vec Ideal S128x128 .f32) (b : Vec Ideal S1x128 .f32)
    (j : S5000x128.Idx) (i : S100000x128.Idx)
    (hh : ∀ k : Fin 128, h (ix2 (j 0) k) = H (ix2 (i 0) k)) (ha : ∀ k : Fin 128, a (ix2 (j 0) k) = A (ix2 (i 0) k))
    (hq : (j 1).val = (i 1).val) (hws : ws = Ws) (hwn : wn = Wn) (hb : b = B) :
    k0_pay1 (F := Ideal) h a ws wn b j = layerRelu H A Ws Wn B i := by
  have hq' : (j 1 : Fin 128) = (i 1 : Fin 128) := Fin.ext hq
  have hj : j = ix2 (j 0 : Fin 5000) (i 1 : Fin 128) := by rw [← hq']; exact eq_ix2 j
  have hi : i = ix2 (i 0 : Fin 100000) (i 1 : Fin 128) := eq_ix2 i
  rw [hj, hi]
  exact pay0_eq_layer H A Ws Wn B h a ws wn b (j 0) (i 1) (i 0) hh ha hws hwn hb

/-- The same for the second layer. -/
theorem pay1_eq_layer_at (H A : Vec Ideal S100000x128 .f32) (Ws Wn : Vec Ideal S128x64 .f32) (B : Vec Ideal S1x64 .f32)
    (h a : Vec Ideal S5000x128 .f32) (ws wn : Vec Ideal S128x64 .f32) (b : Vec Ideal S1x64 .f32)
    (j : S5000x64.Idx) (i : S100000x64.Idx)
    (hh : ∀ k : Fin 128, h (ix2 (j 0) k) = H (ix2 (i 0) k)) (ha : ∀ k : Fin 128, a (ix2 (j 0) k) = A (ix2 (i 0) k))
    (hq : (j 1).val = (i 1).val) (hws : ws = Ws) (hwn : wn = Wn) (hb : b = B) :
    k1_pay1 (F := Ideal) h a ws wn b j = layerLin H A Ws Wn B i := by
  have hq' : (j 1 : Fin 64) = (i 1 : Fin 64) := Fin.ext hq
  have hj : j = ix2 (j 0 : Fin 5000) (i 1 : Fin 64) := by rw [← hq']; exact eq_ix2 j
  have hi : i = ix2 (i 0 : Fin 100000) (i 1 : Fin 64) := eq_ix2 i
  rw [hj, hi]
  exact pay1_eq_layer H A Ws Wn B h a ws wn b (j 0) (i 1) (i 0) hh ha hws hwn hb

end Cert.Sage

end
-- ==== Proof.Region0Value.lean ====
/-
  The first region's result array as one function of the buffers the region finds.

  Grid point `t` stores rows `5000·t … 5000·t + 4999` of the result: its feature and neighbour-mean blocks are those
  rows of their arrays, the weights and the bias row are loaded whole, so the stored block is that block of the first
  layer (clamped at zero) taken over the whole arrays. The twenty blocks cover all 100000 rows.
-/
import proofs.«180621_j66219805769844_1_alg».proof.Proof.Gen.KernelIdeal.Frame
import proofs.«180621_j66219805769844_1_alg».proof.Proof.LayerPayload
import Idealize.ShloMosaic.Lib.Pipeline.Value

set_option maxRecDepth 16384

noncomputable section

namespace Cert.Sage.Region0

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of the features, the neighbour means and the result move
    with the point; the weights and the bias row stay at block zero. -/
theorem idx0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- What point `t` writes back is block `t` of the first layer of the arrays as the region finds them. -/
theorem flushed0 (c : Dev nD) (t : Fin cfg0.N) :
    (dat0 V c).flushed 5 t = ((cfg0.win 5).blk t).view.read (Elt Ideal)
      (layerRelu (V c main_arg0) (V c main_v20) (V c main_arg3) (V c main_arg4) (V c main_v21)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨e00, e01, e10, e11, e20, e21, e30, e31, e40, e41, e50, e51⟩ := idx0 t
  show k0_pay1 (F := Ideal) (iblk0 V c 0 t) (iblk0 V c 1 t) (iblk0 V c 2 t) (iblk0 V c 3 t) (iblk0 V c 4 t) j
    = layerRelu (V c main_arg0) (V c main_v20) (V c main_arg3) (V c main_arg4) (V c main_v21) (((cfg0.win 5).blk t).view.emb j)
  refine pay0_eq_layer_at _ _ _ _ _ _ _ _ _ _ j _ (fun k => ?_) (fun k => ?_) ?_ ?_ ?_ ?_
  · show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_v20 (((cfg0.win 1).blk t).view.emb (ix2 (j 0) k)) = V c main_v20 (ix2 ((((cfg0.win 5).blk t).view.emb j) 0) k)
    refine congrArg (V c main_v20) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show (j 1).val = win0_5.index t (1 : Fin 2) * 128 + 1 * (j 1).val
    omega
  · funext y
    show V c main_arg3 (((cfg0.win 2).blk t).view.emb y) = V c main_arg3 y
    refine congrArg (V c main_arg3) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg4 (((cfg0.win 3).blk t).view.emb y) = V c main_arg4 y
    refine congrArg (V c main_arg4) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v21 (((cfg0.win 4).blk t).view.emb y) = V c main_v21 y
    refine congrArg (V c main_v21) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega

/-- An index of the result array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Every node row lies in the block of the point numbered by its row divided by the block height. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, e50, e51⟩ := idx0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE FIRST REGION'S RESULT ARRAY, whatever the buffers hold when the region is entered: the first layer of the node
    features, the neighbour means, the weights and the bias row as the region finds them. -/
theorem final0 (c : Dev nD) :
    (dat0 V c).arrAt 5 cfg0.N
      = layerRelu (V c main_arg0) (V c main_v20) (V c main_arg3) (V c main_arg4) (V c main_v21) :=
  (dat0 V c).arrAt_eq_of_cover 5 _ (fun t _ => flushed0 V c t) cover0

end Cert.Sage.Region0

end
-- ==== Proof.Region1Value.lean ====
/-
  The second region's result array as one function of the buffers the region finds.

  Grid point `t` stores rows `5000·t … 5000·t + 4999` of the result: its feature and neighbour-mean blocks are those
  rows of their arrays, the weights and the bias row are loaded whole, so the stored block is that block of the second
  layer taken over the whole arrays. The twenty blocks cover all 100000 rows.
-/
import proofs.«180621_j66219805769844_1_alg».proof.Proof.Gen.KernelIdeal.Frame
import proofs.«180621_j66219805769844_1_alg».proof.Proof.LayerPayload
import Idealize.ShloMosaic.Lib.Pipeline.Value

set_option maxRecDepth 16384

noncomputable section

namespace Cert.Sage.Region1

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of the features, the neighbour means and the result move
    with the point; the weights and the bias row stay at block zero. -/
theorem idx1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = t.val ∧ win1_5.index t (1 : Fin 2) = 0 :=
  (by decide +kernel : ∀ t : Fin grid1.N, _)

/-- What point `t` writes back is block `t` of the second layer of the arrays as the region finds them. -/
theorem flushed1 (c : Dev nD) (t : Fin cfg1.N) :
    (dat1 V c).flushed 5 t = ((cfg1.win 5).blk t).view.read (Elt Ideal)
      (layerLin (V c main_v22) (V c main_v35) (V c main_arg6) (V c main_arg7) (V c main_v36)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  funext j
  obtain ⟨e00, e01, e10, e11, e20, e21, e30, e31, e40, e41, e50, e51⟩ := idx1 t
  show k1_pay1 (F := Ideal) (iblk1 V c 0 t) (iblk1 V c 1 t) (iblk1 V c 2 t) (iblk1 V c 3 t) (iblk1 V c 4 t) j
    = layerLin (V c main_v22) (V c main_v35) (V c main_arg6) (V c main_arg7) (V c main_v36) (((cfg1.win 5).blk t).view.emb j)
  refine pay1_eq_layer_at _ _ _ _ _ _ _ _ _ _ j _ (fun k => ?_) (fun k => ?_) ?_ ?_ ?_ ?_
  · show V c main_v22 (((cfg1.win 0).blk t).view.emb (ix2 (j 0) k)) = V c main_v22 (ix2 ((((cfg1.win 5).blk t).view.emb j) 0) k)
    refine congrArg (V c main_v22) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v35 (((cfg1.win 1).blk t).view.emb (ix2 (j 0) k)) = V c main_v35 (ix2 ((((cfg1.win 5).blk t).view.emb j) 0) k)
    refine congrArg (V c main_v35) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show (j 1).val = win1_5.index t (1 : Fin 2) * 64 + 1 * (j 1).val
    omega
  · funext y
    show V c main_arg6 (((cfg1.win 2).blk t).view.emb y) = V c main_arg6 y
    refine congrArg (V c main_arg6) (funext fun a => Fin.ext ?_)
    match a with
    | ⟨0, _⟩ => show win1_2.index t (0 : Fin 2) * 128 + 1 * (y 0).val = (y 0).val; omega
    | ⟨1, _⟩ => show win1_2.index t (1 : Fin 2) * 64 + 1 * (y 1).val = (y 1).val; omega
  · funext y
    show V c main_arg7 (((cfg1.win 3).blk t).view.emb y) = V c main_arg7 y
    refine congrArg (V c main_arg7) (funext fun a => Fin.ext ?_)
    match a with
    | ⟨0, _⟩ => show win1_3.index t (0 : Fin 2) * 128 + 1 * (y 0).val = (y 0).val; omega
    | ⟨1, _⟩ => show win1_3.index t (1 : Fin 2) * 64 + 1 * (y 1).val = (y 1).val; omega
  · funext y
    show V c main_v36 (((cfg1.win 4).blk t).view.emb y) = V c main_v36 y
    refine congrArg (V c main_v36) (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega

/-- An index of the result array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v37).slice (win1_5.rect t)).set ↔ _
  rw [View.set_slice_whole, Rect.mem_set_unit]
  exact Iff.rfl

/-- Every node row lies in the block of the point numbered by its row divided by the block height. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, -, -, -, e50, e51⟩ := idx1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE SECOND REGION'S RESULT ARRAY, whatever the buffers hold when the region is entered: the second layer of the
    hidden features, their neighbour means, the weights and the bias row as the region finds them. -/
theorem final1 (c : Dev nD) :
    (dat1 V c).arrAt 5 cfg1.N
      = layerLin (V c main_v22) (V c main_v35) (V c main_arg6) (V c main_arg7) (V c main_v36) :=
  (dat1 V c).arrAt_eq_of_cover 5 _ (fun t _ => flushed1 V c t) cover1

end Cert.Sage.Region1

end
-- ==== Proof.KernelHost.lean ====
/-
  What the host operations around the two regions leave in the buffers the regions read.

  The first stretch computes, from the arguments, the neighbour means of the input features (the sums times the
  reciprocal clamped counts) and lays the first bias out as a row; the second stretch does the same from the first
  region's result, reusing the reciprocal counts. Neither writes an argument or the first region's result. Chained
  through the contents at each boundary of the run, the second region's result array is the second layer of the first
  layer, each over its neighbour means.
-/
import proofs.«180621_j66219805769844_1_alg».proof.Proof.Gen.KernelIdeal.Frame
import proofs.«180621_j66219805769844_1_alg».proof.Proof.Aggregate
import proofs.«180621_j66219805769844_1_alg».proof.Proof.Region0Value
import proofs.«180621_j66219805769844_1_alg».proof.Proof.Region1Value
import Idealize.ShloMosaic.Lib.StableHlo.Run

set_option maxRecDepth 16384
set_option maxHeartbeats 4000000

noncomputable section

namespace Cert.Sage.KernelHost

open Idealize.ShloMosaic Idealize.ShloMosaic.TcCoe Idealize.ShloMosaic.ValueIdx Idealize.SL.Sem Idealize.ShloMosaic.StableHlo
open Cert.KernelIdeal Cert.KernelIdeal.Gen Cert.KernelIdeal.Facts₀ Cert.Sage

section Stretches

variable (W : Valuation τ sig (Elt Ideal))

/-- The first stretch leaves the neighbour means of the input features. -/
theorem stretch0_mean : StableHlo.after hostOps0 W (Proc.devRef .tc main_v20)
    = meanMul (W (Proc.devRef .tc main_arg0)) (W (Proc.devRef .tc main_arg1)) (W (Proc.devRef .tc main_arg2)) := by
  dsimp only [hostOps0]
  after_results_simp
  rfl

/-- The first stretch leaves the reciprocal clamped counts. -/
theorem stretch0_invDeg : StableHlo.after hostOps0 W (Proc.devRef .tc main_v7) = invDeg (W (Proc.devRef .tc main_arg2)) := by
  dsimp only [hostOps0]
  after_results_simp
  rfl

/-- The first stretch leaves the first bias as a one-row array. -/
theorem stretch0_bias : StableHlo.after hostOps0 W (Proc.devRef .tc main_v21)
    = shapeCast S1x128 (W (Proc.devRef .tc main_arg5)) Facts₀.shapeCasts_S128_S1x128 := by
  dsimp only [hostOps0]
  after_results_simp
  rfl

theorem stretch0_arg0 : StableHlo.after hostOps0 W (Proc.devRef .tc main_arg0) = W (Proc.devRef .tc main_arg0) := by
  dsimp only [hostOps0]; after_results_simp
theorem stretch0_arg1 : StableHlo.after hostOps0 W (Proc.devRef .tc main_arg1) = W (Proc.devRef .tc main_arg1) := by
  dsimp only [hostOps0]; after_results_simp
theorem stretch0_arg2 : StableHlo.after hostOps0 W (Proc.devRef .tc main_arg2) = W (Proc.devRef .tc main_arg2) := by
  dsimp only [hostOps0]; after_results_simp
theorem stretch0_arg3 : StableHlo.after hostOps0 W (Proc.devRef .tc main_arg3) = W (Proc.devRef .tc main_arg3) := by
  dsimp only [hostOps0]; after_results_simp
theorem stretch0_arg4 : StableHlo.after hostOps0 W (Proc.devRef .tc main_arg4) = W (Proc.devRef .tc main_arg4) := by
  dsimp only [hostOps0]; after_results_simp
theorem stretch0_arg6 : StableHlo.after hostOps0 W (Proc.devRef .tc main_arg6) = W (Proc.devRef .tc main_arg6) := by
  dsimp only [hostOps0]; after_results_simp
theorem stretch0_arg7 : StableHlo.after hostOps0 W (Proc.devRef .tc main_arg7) = W (Proc.devRef .tc main_arg7) := by
  dsimp only [hostOps0]; after_results_simp
theorem stretch0_arg8 : StableHlo.after hostOps0 W (Proc.devRef .tc main_arg8) = W (Proc.devRef .tc main_arg8) := by
  dsimp only [hostOps0]; after_results_simp

/-- The second stretch leaves the sums over the first region's result times the reciprocal counts it finds. -/
theorem stretch1_mean : StableHlo.after hostOps1 W (Proc.devRef .tc main_v35)
    = mulf (msgSum (W (Proc.devRef .tc main_v22)) (W (Proc.devRef .tc main_arg1)) (W (Proc.devRef .tc main_arg2)))
        (alongRow (W (Proc.devRef .tc main_v7))) := by
  dsimp only [hostOps1]
  after_results_simp
  rfl

/-- The second stretch leaves the second bias as a one-row array. -/
theorem stretch1_bias : StableHlo.after hostOps1 W (Proc.devRef .tc main_v36)
    = shapeCast S1x64 (W (Proc.devRef .tc main_arg8)) Facts₀.shapeCasts_S64_S1x64 := by
  dsimp only [hostOps1]
  after_results_simp
  rfl

theorem stretch1_hidden : StableHlo.after hostOps1 W (Proc.devRef .tc main_v22) = W (Proc.devRef .tc main_v22) := by
  dsimp only [hostOps1]; after_results_simp
theorem stretch1_arg6 : StableHlo.after hostOps1 W (Proc.devRef .tc main_arg6) = W (Proc.devRef .tc main_arg6) := by
  dsimp only [hostOps1]; after_results_simp
theorem stretch1_arg7 : StableHlo.after hostOps1 W (Proc.devRef .tc main_arg7) = W (Proc.devRef .tc main_arg7) := by
  dsimp only [hostOps1]; after_results_simp

end Stretches

/-! ## The run's boundary contents, read at the buffers the regions take -/

section Chain

variable (m : (ℓ : Loc nD τ sig) → Buf (Elt Ideal) ℓ) (ρ : Dev nD → PrngReg)

/-- The first layer of the arguments: what the first region will be shown to leave. -/
def hidden (c : Dev nD) : Vec Ideal S100000x128 .f32 :=
  layerRelu (m ((c : Thread nD τ).loc main_arg0))
    (meanMul (m ((c : Thread nD τ).loc main_arg0)) (m ((c : Thread nD τ).loc main_arg1)) (m ((c : Thread nD τ).loc main_arg2)))
    (m ((c : Thread nD τ).loc main_arg3)) (m ((c : Thread nD τ).loc main_arg4))
    (shapeCast S1x128 (m ((c : Thread nD τ).loc main_arg5)) Facts₀.shapeCasts_S128_S1x128)

theorem entry0_features (c : Dev nD) : V1 m ρ c main_arg0 = m ((c : Thread nD τ).loc main_arg0) :=
  stretch0_arg0 (W0 m ρ c)
theorem entry0_mean (c : Dev nD) : V1 m ρ c main_v20
    = meanMul (m ((c : Thread nD τ).loc main_arg0)) (m ((c : Thread nD τ).loc main_arg1)) (m ((c : Thread nD τ).loc main_arg2)) :=
  stretch0_mean (W0 m ρ c)
theorem entry0_wself (c : Dev nD) : V1 m ρ c main_arg3 = m ((c : Thread nD τ).loc main_arg3) :=
  stretch0_arg3 (W0 m ρ c)
theorem entry0_wneigh (c : Dev nD) : V1 m ρ c main_arg4 = m ((c : Thread nD τ).loc main_arg4) :=
  stretch0_arg4 (W0 m ρ c)
theorem entry0_bias (c : Dev nD) : V1 m ρ c main_v21
    = shapeCast S1x128 (m ((c : Thread nD τ).loc main_arg5)) Facts₀.shapeCasts_S128_S1x128 :=
  stretch0_bias (W0 m ρ c)

/-- THE FIRST REGION'S RESULT ARRAY is the first layer of the arguments. -/
theorem region0_result (c : Dev nD) : (dat0 (V1 m ρ) c).arrAt 5 cfg0.N = hidden m c := by
  rw [Region0.final0, entry0_features, entry0_mean, entry0_wself, entry0_wneigh, entry0_bias]
  rfl

/-! Between the regions: the first region's exit contents at the buffers the second stretch reads. -/

theorem exit0_hidden (c : Dev nD) : W2 m ρ c (Proc.devRef .tc main_v22) = hidden m c :=
  (W2_arr m ρ c 5).trans (region0_result m ρ c)
theorem exit0_src (c : Dev nD) : W2 m ρ c (Proc.devRef .tc main_arg1) = m ((c : Thread nD τ).loc main_arg1) :=
  (W2_of_ne m ρ c main_arg1 (by decide)).trans (stretch0_arg1 (W0 m ρ c))
theorem exit0_dst (c : Dev nD) : W2 m ρ c (Proc.devRef .tc main_arg2) = m ((c : Thread nD τ).loc main_arg2) :=
  (W2_of_ne m ρ c main_arg2 (by decide)).trans (stretch0_arg2 (W0 m ρ c))
theorem exit0_invDeg (c : Dev nD) : W2 m ρ c (Proc.devRef .tc main_v7) = invDeg (m ((c : Thread nD τ).loc main_arg2)) :=
  (W2_of_ne m ρ c main_v7 (by decide)).trans (stretch0_invDeg (W0 m ρ c))
theorem exit0_wself (c : Dev nD) : W2 m ρ c (Proc.devRef .tc main_arg6) = m ((c : Thread nD τ).loc main_arg6) :=
  (W2_of_ne m ρ c main_arg6 (by decide)).trans (stretch0_arg6 (W0 m ρ c))
theorem exit0_wneigh (c : Dev nD) : W2 m ρ c (Proc.devRef .tc main_arg7) = m ((c : Thread nD τ).loc main_arg7) :=
  (W2_of_ne m ρ c main_arg7 (by decide)).trans (stretch0_arg7 (W0 m ρ c))
theorem exit0_bias (c : Dev nD) : W2 m ρ c (Proc.devRef .tc main_arg8) = m ((c : Thread nD τ).loc main_arg8) :=
  (W2_of_ne m ρ c main_arg8 (by decide)).trans (stretch0_arg8 (W0 m ρ c))

/-! What the second region finds. -/

theorem entry1_features (c : Dev nD) : V3 m ρ c main_v22 = hidden m c :=
  (stretch1_hidden (W2 m ρ c)).trans (exit0_hidden m ρ c)
theorem entry1_mean (c : Dev nD) : V3 m ρ c main_v35
    = meanMul (hidden m c) (m ((c : Thread nD τ).loc main_arg1)) (m ((c : Thread nD τ).loc main_arg2)) :=
  (stretch1_mean (W2 m ρ c)).trans (by
    rw [exit0_hidden, exit0_src, exit0_dst, exit0_invDeg]
    unfold meanMul
    rfl)
theorem entry1_wself (c : Dev nD) : V3 m ρ c main_arg6 = m ((c : Thread nD τ).loc main_arg6) :=
  (stretch1_arg6 (W2 m ρ c)).trans (exit0_wself m ρ c)
theorem entry1_wneigh (c : Dev nD) : V3 m ρ c main_arg7 = m ((c : Thread nD τ).loc main_arg7) :=
  (stretch1_arg7 (W2 m ρ c)).trans (exit0_wneigh m ρ c)
theorem entry1_bias (c : Dev nD) : V3 m ρ c main_v36
    = shapeCast S1x64 (m ((c : Thread nD τ).loc main_arg8)) Facts₀.shapeCasts_S64_S1x64 :=
  (stretch1_bias (W2 m ρ c)).trans (by rw [exit0_bias])

/-- THE KERNEL'S RESULT BUFFER at the end of the run: the second layer of the first layer of the arguments, each over
    its neighbour means (product spelling). -/
theorem kernel_result (c : Dev nD) : W4 m ρ c (Proc.devRef .tc main_v37)
    = layerLin (hidden m c)
        (meanMul (hidden m c) (m ((c : Thread nD τ).loc main_arg1)) (m ((c : Thread nD τ).loc main_arg2)))
        (m ((c : Thread nD τ).loc main_arg6)) (m ((c : Thread nD τ).loc main_arg7))
        (shapeCast S1x64 (m ((c : Thread nD τ).loc main_arg8)) Facts₀.shapeCasts_S64_S1x64) := by
  refine (W4_arr m ρ c 5).trans ?_
  rw [Region1.final1, entry1_features, entry1_mean, entry1_wself, entry1_wneigh, entry1_bias]

end Chain

end Cert.Sage.KernelHost

end
-- ==== Proof.RefValue.lean ====
/-
  The reference's result as the two layers over the neighbour means.

  Read one operation at a time, the reference's hidden array at `(P, q)` is
  `max ((∑ k, x (P, k) · W_self1 (k, q) + ∑ k, mean x (P, k) · W_neigh1 (k, q)) + b1 q) 0` and its result at `(P, q)` is
  `(∑ k, hidden (P, k) · W_self2 (k, q) + ∑ k, mean hidden (P, k) · W_neigh2 (k, q)) + b2 q`, the mean in its quotient
  spelling: the first and the second layer of the whole arrays, the bias read as a one-row array.
-/
import proofs.«180621_j66219805769844_1_alg».proof.Proof.Gen.ReferenceIdeal.Run
import proofs.«180621_j66219805769844_1_alg».proof.Proof.Gen.ReferenceIdeal.Read
import proofs.«180621_j66219805769844_1_alg».proof.Proof.LayerPayload
import proofs.«180621_j66219805769844_1_alg».proof.Proof.Aggregate
import Idealize.ShloMosaic.Lib.ValueLayout

set_option maxRecDepth 16384

noncomputable section

namespace Cert.Sage.RefValue

open Idealize.ShloMosaic Idealize.ShloMosaic.ValueIdx
open Cert.ReferenceIdeal Cert.ReferenceIdeal.Read Cert.Sage

/-! ## The index maps of the reference's operations at `(P, q)` -/

theorem lidx19 (P : Fin 100000) (q k : Fin 128) : lidx_main_v19 (ix2 P q) k = ix2 P k :=
  funext fun a => Fin.ext (by match a with | ⟨0, _⟩ => rfl | ⟨1, _⟩ => rfl)
theorem ridx19 (P : Fin 100000) (q k : Fin 128) : ridx_main_v19 (ix2 P q) k = ix2 k q :=
  funext fun a => Fin.ext (by match a with | ⟨0, _⟩ => rfl | ⟨1, _⟩ => rfl)
theorem lidx20 (P : Fin 100000) (q k : Fin 128) : lidx_main_v20 (ix2 P q) k = ix2 P k :=
  funext fun a => Fin.ext (by match a with | ⟨0, _⟩ => rfl | ⟨1, _⟩ => rfl)
theorem ridx20 (P : Fin 100000) (q k : Fin 128) : ridx_main_v20 (ix2 P q) k = ix2 k q :=
  funext fun a => Fin.ext (by match a with | ⟨0, _⟩ => rfl | ⟨1, _⟩ => rfl)
theorem idx23 (P : Fin 100000) (q : Fin 128) : idx_main_v22 (idx_main_v23 (ix2 P q)) = ix1 q :=
  funext fun a => Fin.ext (by match a with | ⟨0, _⟩ => rfl)
theorem lidx45 (P : Fin 100000) (q : Fin 64) (k : Fin 128) : lidx_main_v45 (ix2 P q) k = ix2 P k :=
  funext fun a => Fin.ext (by match a with | ⟨0, _⟩ => rfl | ⟨1, _⟩ => rfl)
theorem ridx45 (P : Fin 100000) (q : Fin 64) (k : Fin 128) : ridx_main_v45 (ix2 P q) k = ix2 k q :=
  funext fun a => Fin.ext (by match a with | ⟨0, _⟩ => rfl | ⟨1, _⟩ => rfl)
theorem lidx46 (P : Fin 100000) (q : Fin 64) (k : Fin 128) : lidx_main_v46 (ix2 P q) k = ix2 P k :=
  funext fun a => Fin.ext (by match a with | ⟨0, _⟩ => rfl | ⟨1, _⟩ => rfl)
theorem ridx46 (P : Fin 100000) (q : Fin 64) (k : Fin 128) : ridx_main_v46 (ix2 P q) k = ix2 k q :=
  funext fun a => Fin.ext (by match a with | ⟨0, _⟩ => rfl | ⟨1, _⟩ => rfl)
theorem idx49 (P : Fin 100000) (q : Fin 64) : idx_main_v48 (idx_main_v49 (ix2 P q)) = ix1 q :=
  funext fun a => Fin.ext (by match a with | ⟨0, _⟩ => rfl)

/-! ## The reference's means are the quotient spelling -/

/-- The mean of the input features' neighbours. -/
theorem mean_input (x : FVec Ideal S100000x128 .f32) (src dst : IVec S1600000 32) :
    val_main_v18 (F := Ideal) x src dst = meanDiv x src dst := rfl

/-- The mean of the hidden features' neighbours. -/
theorem mean_hidden (x : FVec Ideal S100000x128 .f32) (src dst : IVec S1600000 32) (ws wn : FVec Ideal S128x128 .f32)
    (b : FVec Ideal S128 .f32) :
    val_main_v44 (F := Ideal) x src dst ws wn b = meanDiv (val_main_v25 (F := Ideal) x src dst ws wn b) src dst := rfl

/-! ## The two layers -/

/-- The reference's hidden array at `(P, q)` is the first layer there. -/
theorem hidden_apply (x : FVec Ideal S100000x128 .f32) (src dst : IVec S1600000 32) (ws wn : FVec Ideal S128x128 .f32)
    (b : FVec Ideal S128 .f32) (P : Fin 100000) (q : Fin 128) :
    val_main_v25 (F := Ideal) x src dst ws wn b (ix2 P q)
      = layerRelu x (meanDiv x src dst) ws wn
          (shapeCast Cert.KernelIdeal.S1x128 b Cert.KernelIdeal.Facts₀.shapeCasts_S128_S1x128) (ix2 P q) := by
  rw [val_main_v25_apply, val_main_v24_apply, val_main_v21_apply, val_main_v19_apply, val_main_v20_apply,
    val_main_v23_apply, val_main_v22_apply, val_main_call0_v0_apply, val_main_call0_cst_apply, mean_input]
  simp only [lidx19, ridx19, lidx20, ridx20, idx23]
  unfold layerRelu affine
  rw [shapeCast_a_1a_apply]
  exact congrArg (max _) Ideal.ofBits_zero_f32

/-- The reference's hidden array is the first layer. -/
theorem hidden_eq (x : FVec Ideal S100000x128 .f32) (src dst : IVec S1600000 32) (ws wn : FVec Ideal S128x128 .f32)
    (b : FVec Ideal S128 .f32) :
    val_main_v25 (F := Ideal) x src dst ws wn b
      = layerRelu x (meanDiv x src dst) ws wn
          (shapeCast Cert.KernelIdeal.S1x128 b Cert.KernelIdeal.Facts₀.shapeCasts_S128_S1x128) := by
  funext i
  have hi : i = ix2 (i 0 : Fin 100000) (i 1 : Fin 128) := eq_ix2 i
  rw [hi]
  exact hidden_apply x src dst ws wn b _ _

/-- The reference's result at `(P, q)` is the second layer of its hidden array there. -/
theorem result_apply (x : FVec Ideal S100000x128 .f32) (src dst : IVec S1600000 32) (ws1 wn1 : FVec Ideal S128x128 .f32)
    (b1 : FVec Ideal S128 .f32) (ws2 wn2 : FVec Ideal S128x64 .f32) (b2 : FVec Ideal S64 .f32) (P : Fin 100000) (q : Fin 64) :
    val_main_v50 (F := Ideal) x src dst ws1 wn1 b1 ws2 wn2 b2 (ix2 P q)
      = layerLin (val_main_v25 (F := Ideal) x src dst ws1 wn1 b1)
          (meanDiv (val_main_v25 (F := Ideal) x src dst ws1 wn1 b1) src dst) ws2 wn2
          (shapeCast Cert.KernelIdeal.S1x64 b2 Cert.KernelIdeal.Facts₀.shapeCasts_S64_S1x64) (ix2 P q) := by
  rw [val_main_v50_apply, val_main_v47_apply, val_main_v45_apply, val_main_v46_apply,
    val_main_v49_apply, val_main_v48_apply, mean_hidden]
  simp only [lidx45, ridx45, lidx46, ridx46, idx49]
  unfold layerLin affine
  rw [shapeCast_a_1a_apply]
  rfl

/-- THE REFERENCE'S RESULT: the second layer of the first layer, each over its neighbour means (quotient spelling). -/
theorem result_eq (x : FVec Ideal S100000x128 .f32) (src dst : IVec S1600000 32) (ws1 wn1 : FVec Ideal S128x128 .f32)
    (b1 : FVec Ideal S128 .f32) (ws2 wn2 : FVec Ideal S128x64 .f32) (b2 : FVec Ideal S64 .f32) :
    val_main_v50 (F := Ideal) x src dst ws1 wn1 b1 ws2 wn2 b2
      = layerLin
          (layerRelu x (meanDiv x src dst) ws1 wn1
            (shapeCast Cert.KernelIdeal.S1x128 b1 Cert.KernelIdeal.Facts₀.shapeCasts_S128_S1x128))
          (meanDiv
            (layerRelu x (meanDiv x src dst) ws1 wn1
              (shapeCast Cert.KernelIdeal.S1x128 b1 Cert.KernelIdeal.Facts₀.shapeCasts_S128_S1x128)) src dst)
          ws2 wn2 (shapeCast Cert.KernelIdeal.S1x64 b2 Cert.KernelIdeal.Facts₀.shapeCasts_S64_S1x64) := by
  rw [← hidden_eq]
  funext i
  have hi : i = ix2 (i 0 : Fin 100000) (i 1 : Fin 64) := eq_ix2 i
  rw [hi]
  exact result_apply x src dst ws1 wn1 b1 ws2 wn2 b2 _ _

end Cert.Sage.RefValue

end
-- ==== Proof.lean ====
/-
  A two-layer mean-aggregator graph convolution: the tiled kernel program against its whole-array reference, over the
  extended reals.

  Both programs take node features `x`, an edge list `(src, dst)` and two layers' weights and biases. A layer maps
  node features `h` to `h · W_self + mean(h) · W_neigh + b`, where `mean(h)` gives each node the average of `h` over its
  incoming edges (the edge sums divided by the in-degree clamped at one); the first layer is followed by a clamp at
  zero. The kernel program computes the sums and counts on the host with the same gather and scatter-add as the
  reference, multiplies by the reciprocal count where the reference divides, and runs each layer's two products, bias
  and clamp in a grid of twenty row blocks of 5000 nodes; the reference computes each layer with two whole products.

  * The two spellings of the mean agree because the clamped count is at least one, so the quotient by it is the product
    with its inverse (Proof/Aggregate.lean).
  * A row block of a layer depends only on the same rows of the features and of the means and on the whole weights and
    bias, and over the extended reals a product into a zero accumulator is the plain sum over the contracted axis,
    whatever the tiling and the operands' storage format; so the twenty stored blocks are the blocks of the whole-array
    layer, and they cover the array (Proof/LayerPayload.lean, Proof/Region0Value.lean, Proof/Region1Value.lean).
  * The host operations around the two grids are read off the run's boundary contents (Proof/KernelHost.lean), over the
    run with its result buffer named (Proof/KernelRun.lean); the reference is read one operation at a time
    (Proof/RefValue.lean). Both results are the second layer of the first layer of the arguments.
  No precondition on the inputs is used: the law that joins the two sides holds at infinite values too.
-/
import proofs.«180621_j66219805769844_1_alg».proof.Defs
import proofs.«180621_j66219805769844_1_alg».proof.Proof.Gen.Kernel
import proofs.«180621_j66219805769844_1_alg».proof.Proof.Gen.Kernel.Frame
import proofs.«180621_j66219805769844_1_alg».proof.Proof.Gen.KernelIdeal
import proofs.«180621_j66219805769844_1_alg».proof.Proof.Gen.KernelIdeal.Frame
import proofs.«180621_j66219805769844_1_alg».proof.Proof.Gen.ReferenceIdeal
import proofs.«180621_j66219805769844_1_alg».proof.Proof.Gen.ReferenceIdeal.Run
import proofs.«180621_j66219805769844_1_alg».proof.Proof.Gen.ReferenceIdeal.Read
import proofs.«180621_j66219805769844_1_alg».proof.Proof.Gen.Pre_finite_inputs
import proofs.«180621_j66219805769844_1_alg».proof.Proof.KernelRun
import proofs.«180621_j66219805769844_1_alg».proof.Proof.KernelHost
import proofs.«180621_j66219805769844_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel program's result buffer at the end of its run and the reference's result, as functions of the same
    arguments, are one array: the two layers over the neighbour means, whose two spellings agree. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v37)
      = Cert.ReferenceIdeal.Read.val_main_v50 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  rw [Cert.Sage.KernelHost.kernel_result, Cert.Sage.RefValue.result_eq]
  unfold Cert.Sage.KernelHost.hidden
  simp only [Cert.Sage.meanMul_eq_meanDiv]

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs run, and end with the same result array. -/
theorem algebraic : Cert.algebraic_KernelIdeal_ReferenceIdeal := by
  intro m ρ m' ρ' _ hagree
  refine ⟨fun c => Cert.KernelIdeal.Gen.W4 m ρ c (Proc.devRef .tc Cert.KernelIdeal.main_v37),
    Cert.KernelIdeal.ValueRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v50_eq, h0, h1, h2, h3, h4, h5, h6, h7, h8]
  exact (results_agree m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
